-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S600000x64 : Shape := ⟨2, ![600000, 64]⟩
abbrev S600000x2 : Shape := ⟨2, ![600000, 2]⟩
abbrev S64x128 : Shape := ⟨2, ![64, 128]⟩
abbrev S128 : Shape := ⟨1, ![128]⟩
abbrev S128x128 : Shape := ⟨2, ![128, 128]⟩
abbrev S_ : Shape := ⟨0, ![]⟩
abbrev S600000x1 : Shape := ⟨2, ![600000, 1]⟩
abbrev S600000 : Shape := ⟨1, ![600000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S600000x64 : S_.BroadcastsInDim S600000x64 (![] : Fin 0 → Fin S600000x64.rank)
  reducesTo_S600000x64_S_d0_1 : S600000x64.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  slices_S600000x2_S600000x1_0_1 : S600000x2.Slices ![0, 1] S600000x1
  shapeCasts_S600000x1_S600000 : S600000x1.ShapeCasts S600000
  bcast_S_S600000 : S_.BroadcastsInDim S600000 (![] : Fin 0 → Fin S600000.rank)
  reducesTo_S600000_S_d0 : S600000.ReducesTo [0] S_

variable [Facts]

def fn_part2 {F : FTy → Type} [FloatOps F] (main_v28 : IVec S_ 1) (main_v32 : IVec S600000 1) (main_v34 : IVec S600000 32) : IVec S_ 1 :=
  let main_c_11 : IVec S_ 32 := constantI S_ 32 100000#32
  let main_v35 : IVec S600000 32 := broadcastInDim S600000 ![] bcast_S_S600000 main_c_11
  let main_v36 : IVec S600000 1 := cmpi .slt main_v34 main_v35
  let main_v37 : IVec S600000 1 := andi main_v32 main_v36
  let main_c_12 : IVec S_ 1 := constantI S_ 1 1#1
  let main_v38 : IVec S_ 1 := (fun x v => Host.reduce IntOp.andi x v reducesTo_S600000_S_d0 h_S_) main_v37 main_c_12
  let main_v39 : IVec S_ 1 := andi main_v28 main_v38
  main_v39

def fn_part1 {F : FTy → Type} [FloatOps F] (main_arg2 : IVec S600000x2 32) (main_arg5 : FVec F S128x128 .f32) (main_arg6 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : IVec S600000x1 32 := (extractStridedSlice S600000x1 ![0, 1] · slices_S600000x2_S600000x1_0_1) main_arg2
  let main_v30 : IVec S600000 32 := shapeCast S600000 main_v29 shapeCasts_S600000x1_S600000
  let main_c_10 : IVec S_ 32 := constantI S_ 32 4294867296#32
  let main_v31 : IVec S600000 32 := broadcastInDim S600000 ![] bcast_S_S600000 main_c_10
  let main_v32 : IVec S600000 1 := cmpi .sge main_v30 main_v31
  let main_v33 : IVec S600000x1 32 := (extractStridedSlice S600000x1 ![0, 1] · slices_S600000x2_S600000x1_0_1) main_arg2
  let main_v34 : IVec S600000 32 := shapeCast S600000 main_v33 shapeCasts_S600000x1_S600000
  fn_part2 (F := F) main_v28 main_v32 main_v34

def fn {F : FTy → Type} [FloatOps F] (main_arg0 : FVec F S100000x128 .f32) (main_arg1 : FVec F S600000x64 .f32) (main_arg2 : IVec S600000x2 32) (main_arg3 : FVec F S64x128 .f32) (main_arg4 : FVec F S128 .f32) (main_arg5 : FVec F S128x128 .f32) (main_arg6 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S600000x64 .f32 := Host.absf main_arg1
  let main_cst_0 : FVec F S_ .f32 := constant S_ .f32 0x7F800000#32
  let main_v5 : FVec F S600000x64 .f32 := broadcastInDim S600000x64 ![] bcast_S_S600000x64 main_cst_0
  let main_v6 : IVec S600000x64 1 := cmpf .olt main_v4 main_v5
  let main_c_1 : IVec S_ 1 := constantI S_ 1 1#1
  let main_v7 : IVec S_ 1 := (fun x v => Host.reduce IntOp.andi x v reducesTo_S600000x64_S_d0_1 h_S_) main_v6 main_c_1
  let main_v8 : IVec S_ 1 := andi main_v3 main_v7
  let main_v9 : FVec F S64x128 .f32 := Host.absf main_arg3
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg2 main_arg5 main_arg6 main_v13 main_v16
-- ==== Kernel.lean ====
abbrev S100000x128 : Shape := ⟨2, ![100000, 128]⟩
abbrev S600000x64 : Shape := ⟨2, ![600000, 64]⟩
abbrev S600000x2 : Shape := ⟨2, ![600000, 2]⟩
abbrev S64x128 : Shape := ⟨2, ![64, 128]⟩
abbrev S128 : Shape := ⟨1, ![128]⟩
abbrev S128x128 : Shape := ⟨2, ![128, 128]⟩
abbrev S600000x1 : Shape := ⟨2, ![600000, 1]⟩
abbrev S600000 : Shape := ⟨1, ![600000]⟩
abbrev S_ : Shape := ⟨0, ![]⟩
abbrev S1 : Shape := ⟨1, ![1]⟩
abbrev S1x1 : Shape := ⟨2, ![1, 1]⟩
abbrev S600000x128 : Shape := ⟨2, ![600000, 128]⟩
abbrev S1x128 : Shape := ⟨2, ![1, 128]⟩
abbrev S6000x64 : Shape := ⟨2, ![6000, 64]⟩
abbrev S6000x128 : Shape := ⟨2, ![6000, 128]⟩

abbrev nBuf : Space → Nat
  | .hbm => 46
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S600000x64, .f32⟩
  | .hbm, ⟨2, _⟩ => ⟨S600000x2, .i32⟩
  | .hbm, ⟨3, _⟩ => ⟨S64x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S600000x1, .i32⟩
  | .hbm, ⟨8, _⟩ => ⟨S600000, .i32⟩
  | .hbm, ⟨9, _⟩ => ⟨S600000x1, .i32⟩
  | .hbm, ⟨10, _⟩ => ⟨S600000, .i32⟩
  | .hbm, ⟨11, _⟩ => ⟨S_, .i32⟩
  | .hbm, ⟨12, _⟩ => ⟨S600000, .i32⟩
  | .hbm, ⟨13, _⟩ => ⟨S600000, .i1⟩
  | .hbm, ⟨14, _⟩ => ⟨S_, .i32⟩
  | .hbm, ⟨15, _⟩ => ⟨S600000, .i32⟩
  | .hbm, ⟨16, _⟩ => ⟨S600000, .i32⟩
  | .hbm, ⟨17, _⟩ => ⟨S600000, .i32⟩
  | .hbm, ⟨18, _⟩ => ⟨S600000x1, .i32⟩
  | .hbm, ⟨19, _⟩ => ⟨S1, .i32⟩
  | .hbm, ⟨20, _⟩ => ⟨S_, .i32⟩
  | .hbm, ⟨21, _⟩ => ⟨S600000x1, .i32⟩
  | .hbm, ⟨22, _⟩ => ⟨S600000x1, .i1⟩
  | .hbm, ⟨23, _⟩ => ⟨S1x1, .i32⟩
  | .hbm, ⟨24, _⟩ => ⟨S600000x1, .i32⟩
  | .hbm, ⟨25, _⟩ => ⟨S600000x1, .i1⟩
  | .hbm, ⟨26, _⟩ => ⟨S600000x1, .i1⟩
  | .hbm, ⟨27, _⟩ => ⟨S_, .i1⟩
  | .hbm, ⟨28, _⟩ => ⟨S600000, .i1⟩
  | .hbm, ⟨29, _⟩ => ⟨S600000x128, .f32⟩
  | .hbm, ⟨30, _⟩ => ⟨S600000x128, .i1⟩
  | .hbm, ⟨31, _⟩ => ⟨S_, .f32⟩
  | .hbm, ⟨32, _⟩ => ⟨S600000x128, .f32⟩
  | .hbm, ⟨33, _⟩ => ⟨S600000x128, .f32⟩
  | .hbm, ⟨34, _⟩ => ⟨S1x128, .f32⟩
  | .hbm, ⟨35, _⟩ => ⟨S1x128, .f32⟩
  | .hbm, ⟨36, _⟩ => ⟨S600000x128, .f32⟩
  | .hbm, ⟨37, _⟩ => ⟨S_, .i32⟩
  | .hbm, ⟨38, _⟩ => ⟨S600000, .i32⟩
  | .hbm, ⟨39, _⟩ => ⟨S600000, .i1⟩
  | .hbm, ⟨40, _⟩ => ⟨S_, .i32⟩
  | .hbm, ⟨41, _⟩ => ⟨S600000, .i32⟩
  | .hbm, ⟨42, _⟩ => ⟨S600000, .i32⟩
  | .hbm, ⟨43, _⟩ => ⟨S600000, .i32⟩
  | .hbm, ⟨44, _⟩ => ⟨S600000x1, .i32⟩
  | .hbm, ⟨45, _⟩ => ⟨S100000x128, .f32⟩
  | .local _ .vmem, ⟨0, _⟩ => ⟨S6000x64, .f32⟩
  | .local _ .vmem, ⟨1, _⟩ => ⟨S6000x64, .f32⟩
  | .local _ .vmem, ⟨2, _⟩ => ⟨S6000x128, .f32⟩
  | .local _ .vmem, ⟨3, _⟩ => ⟨S6000x128, .f32⟩
  | .local _ .vmem, ⟨4, _⟩ => ⟨S64x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S6000x128, .f32⟩
  | .local _ .vmem, ⟨9, _⟩ => ⟨S6000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_c : Ref sig .tc := ⟨.hbm, 37, rfl⟩
abbrev main_v8 : Ref sig .tc := ⟨.hbm, 38, rfl⟩
abbrev main_v9 : Ref sig .tc := ⟨.hbm, 39, rfl⟩
abbrev main_c_0 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S6000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S600000x2_S600000x1_0_0 : S600000x2.Slices ![0, 0] S600000x1
  shapeCasts_S600000x1_S600000 : S600000x1.ShapeCasts S600000
  slices_S600000x2_S600000x1_0_1 : S600000x2.Slices ![0, 1] S600000x1
  bcast_S_S600000 : S_.BroadcastsInDim S600000 (![] : Fin 0 → Fin S600000.rank)
  bcast_S600000_S600000x1_0 : S600000.BroadcastsInDim S600000x1 (![0] : Fin 1 → Fin S600000x1.rank)
  bcast_S_S600000x1 : S_.BroadcastsInDim S600000x1 (![] : Fin 0 → Fin S600000x1.rank)
  bcast_S1_S1x1_1 : S1.BroadcastsInDim S1x1 (![1] : Fin 1 → Fin S1x1.rank)
  bcast_S1x1_S600000x1_0_1 : S1x1.BroadcastsInDim S600000x1 (![0, 1] : Fin 2 → Fin S600000x1.rank)
  reducesTo_S600000x1_S600000_d1 : S600000x1.ReducesTo [1] S600000
  h_S_ : 0 < S_.numel
  bcast_S600000_S600000x128_0 : S600000.BroadcastsInDim S600000x128 (![0] : Fin 1 → Fin S600000x128.rank)
  bcast_S_S600000x128 : S_.BroadcastsInDim S600000x128 (![] : Fin 0 → Fin S600000x128.rank)
  shapeCasts_S128_S1x128 : S128.ShapeCasts S1x128
  inb_S6000x64_S6000x64_0_0 : ∀ a, (![0, 0] : Fin 2 → Nat) a + S6000x64.size a ≤ S6000x64.size a
  h_S6000x64 : 0 < S6000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S6000x128 : S1x128.Broadcasts S6000x128
  inb_S128x128_S128x128_0_0 : ∀ a, (![0, 0] : Fin 2 → Nat) a + S128x128.size a ≤ S128x128.size a
  h_S128x128 : 0 < S128x128.numel
  inb_S6000x128_S6000x128_0_0 : ∀ a, (![0, 0] : Fin 2 → Nat) a + S6000x128.size a ≤ S6000x128.size a
  h_S6000x128 : 0 < S6000x128.numel
  shapeCasts_S6000x128_S6000x128 : S6000x128.ShapeCasts S6000x128
  gather_S100000x128_S600000x1_S600000x128_1_0_n_n_0_1_1128_wf : GatherDims.WF S100000x128 S600000x1 S600000x128 [1] [0] [] [0] [] 1 ![1, 128]
  dot_S6000x64_S64x128_S6000x128_1_0_0_1_n_n_wf : DotDims.WF S6000x64 S64x128 S6000x128 [1] [0] [0] [1] [] []
  dot_S6000x128_S128x128_S6000x128_1_0_0_1_n_n_wf : DotDims.WF S6000x128 S128x128 S6000x128 [1] [0] [0] [1] [] []
  scatter_S100000x128_S600000x1_S600000x128_1_0_0_1_wf : ScatterDims.WF S100000x128 S600000x1 S600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6000x64.size a ≤ S600000x64.size a
  hwx0_0 : ∀ i : grid0.Coords, EltTy.bits .f32 = 32 ∨ (Rect.block (s := S600000x64) S6000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6000x128.size a ≤ S600000x128.size a
  hwx0_1 : ∀ i : grid0.Coords, EltTy.bits .f32 = 32 ∨ (Rect.block (s := S600000x128) S6000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S6000x128.size a ≤ S600000x128.size a
  hwx0_6 : ∀ i : grid0.Coords, EltTy.bits .f32 = 32 ∨ (Rect.block (s := S600000x128) S6000x128.size (cc0_transform_6 i) (hinb0_6 i)).WholeWords (EltTy.packing .f32)

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def dot_S6000x64_S64x128_S6000x128_1_0_0_1_n_n : DotDims S6000x64 S64x128 S6000x128 where
  lhsContracting := [1]
  rhsContracting := [0]
  lhsNonContracting := [0]
  rhsNonContracting := [1]
  lhsBatch := []
  rhsBatch := []
  wf := dot_S6000x64_S64x128_S6000x128_1_0_0_1_n_n_wf
def dot_S6000x128_S128x128_S6000x128_1_0_0_1_n_n : DotDims S6000x128 S128x128 S6000x128 where
  lhsContracting := [1]
  rhsContracting := [0]
  lhsNonContracting := [0]
  rhsNonContracting := [1]
  lhsBatch := []
  rhsBatch := []
  wf := dot_S6000x128_S128x128_S6000x128_1_0_0_1_n_n_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf

abbrev win0_0 : Pipeline.Window sig grid0 :=
  Pipeline.Window.ofSpec (Memref.whole main_arg1) S6000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S6000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S6000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x128 : Shape := ⟨2, ![100000, 128]⟩
abbrev S600000x64 : Shape := ⟨2, ![600000, 64]⟩
abbrev S600000x2 : Shape := ⟨2, ![600000, 2]⟩
abbrev S64x128 : Shape := ⟨2, ![64, 128]⟩
abbrev S128 : Shape := ⟨1, ![128]⟩
abbrev S128x128 : Shape := ⟨2, ![128, 128]⟩
abbrev S600000x1 : Shape := ⟨2, ![600000, 1]⟩
abbrev S600000 : Shape := ⟨1, ![600000]⟩
abbrev S600000x128 : Shape := ⟨2, ![600000, 128]⟩
abbrev S1x128 : Shape := ⟨2, ![1, 128]⟩
abbrev S_ : Shape := ⟨0, ![]⟩

abbrev nBuf : Space → Nat
  | .hbm => 72
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S600000x64, .f32⟩
  | .hbm, ⟨2, _⟩ => ⟨S600000x2, .i32⟩
  | .hbm, ⟨3, _⟩ => ⟨S64x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S600000x1, .i32⟩
  | .hbm, ⟨8, _⟩ => ⟨S600000, .i32⟩
  | .hbm, ⟨9, _⟩ => ⟨S600000x1, .i32⟩
  | .hbm, ⟨10, _⟩ => ⟨S600000, .i32⟩
  | .hbm, ⟨11, _⟩ => ⟨S600000x128, .f32⟩
  | .hbm, ⟨12, _⟩ => ⟨S1x128, .f32⟩
  | .hbm, ⟨13, _⟩ => ⟨S600000x128, .f32⟩
  | .hbm, ⟨14, _⟩ => ⟨S600000x128, .f32⟩
  | .hbm, ⟨15, _⟩ => ⟨S_, .f32⟩
  | .hbm, ⟨16, _⟩ => ⟨S600000x128, .f32⟩
  | .hbm, ⟨17, _⟩ => ⟨S600000x128, .f32⟩
  | .hbm, ⟨18, _⟩ => ⟨S600000x128, .f32⟩
  | .hbm, ⟨19, _⟩ => ⟨S600000x128, .f32⟩
  | .hbm, ⟨20, _⟩ => ⟨S600000x128, .i1⟩
  | .hbm, ⟨21, _⟩ => ⟨S600000x128, .f32⟩
  | .hbm, ⟨22, _⟩ => ⟨S600000x128, .f32⟩
  | .hbm, ⟨23, _⟩ => ⟨S600000x128, .f32⟩
  | .hbm, ⟨24, _⟩ => ⟨S600000x128, .f32⟩
  | .hbm, ⟨25, _⟩ => ⟨S600000x128, .f32⟩
  | .hbm, ⟨26, _⟩ => ⟨S600000x128, .f32⟩
  | .hbm, ⟨27, _⟩ => ⟨S600000x128, .f32⟩
  | .hbm, ⟨28, _⟩ => ⟨S600000x128, .f32⟩
  | .hbm, ⟨29, _⟩ => ⟨S_, .f32⟩
  | .hbm, ⟨30, _⟩ => ⟨S600000x128, .f32⟩
  | .hbm, ⟨31, _⟩ => ⟨S600000x128, .f32⟩
  | .hbm, ⟨32, _⟩ => ⟨S600000x128, .f32⟩
  | .hbm, ⟨33, _⟩ => ⟨S1x128, .f32⟩
  | .hbm, ⟨34, _⟩ => ⟨S600000x128, .f32⟩
  | .hbm, ⟨35, _⟩ => ⟨S600000x128, .f32⟩
  | .hbm, ⟨36, _⟩ => ⟨S_, .f32⟩
  | .hbm, ⟨37, _⟩ => ⟨S600000x128, .f32⟩
  | .hbm, ⟨38, _⟩ => ⟨S600000x128, .f32⟩
  | .hbm, ⟨39, _⟩ => ⟨S600000x128, .f32⟩
  | .hbm, ⟨40, _⟩ => ⟨S600000x128, .f32⟩
  | .hbm, ⟨41, _⟩ => ⟨S600000x128, .i1⟩
  | .hbm, ⟨42, _⟩ => ⟨S600000x128, .f32⟩
  | .hbm, ⟨43, _⟩ => ⟨S600000x128, .f32⟩
  | .hbm, ⟨44, _⟩ => ⟨S600000x128, .f32⟩
  | .hbm, ⟨45, _⟩ => ⟨S600000x128, .f32⟩
  | .hbm, ⟨46, _⟩ => ⟨S600000x128, .f32⟩
  | .hbm, ⟨47, _⟩ => ⟨S600000x128, .f32⟩
  | .hbm, ⟨48, _⟩ => ⟨S600000x128, .f32⟩
  | .hbm, ⟨49, _⟩ => ⟨S600000x128, .f32⟩
  | .hbm, ⟨50, _⟩ => ⟨S_, .f32⟩
  | .hbm, ⟨51, _⟩ => ⟨S600000x128, .f32⟩
  | .hbm, ⟨52, _⟩ => ⟨S600000x128, .f32⟩
  | .hbm, ⟨53, _⟩ => ⟨S_, .i32⟩
  | .hbm, ⟨54, _⟩ => ⟨S600000, .i32⟩
  | .hbm, ⟨55, _⟩ => ⟨S600000, .i1⟩
  | .hbm, ⟨56, _⟩ => ⟨S_, .i32⟩
  | .hbm, ⟨57, _⟩ => ⟨S600000, .i32⟩
  | .hbm, ⟨58, _⟩ => ⟨S600000, .i32⟩
  | .hbm, ⟨59, _⟩ => ⟨S600000, .i32⟩
  | .hbm, ⟨60, _⟩ => ⟨S600000x1, .i32⟩
  | .hbm, ⟨61, _⟩ => ⟨S600000x128, .f32⟩
  | .hbm, ⟨62, _⟩ => ⟨S600000x128, .f32⟩
  | .hbm, ⟨63, _⟩ => ⟨S_, .i32⟩
  | .hbm, ⟨64, _⟩ => ⟨S600000, .i32⟩
  | .hbm, ⟨65, _⟩ => ⟨S600000, .i1⟩
  | .hbm, ⟨66, _⟩ => ⟨S_, .i32⟩
  | .hbm, ⟨67, _⟩ => ⟨S600000, .i32⟩
  | .hbm, ⟨68, _⟩ => ⟨S600000, .i32⟩
  | .hbm, ⟨69, _⟩ => ⟨S600000, .i32⟩
  | .hbm, ⟨70, _⟩ => ⟨S600000x1, .i32⟩
  | .hbm, ⟨71, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_call0_cst : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_v8 : Ref sig .tc := ⟨.hbm, 28, rfl⟩
abbrev main_cst : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_call1_cst : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_v15 : Ref sig .tc := ⟨.hbm, 49, rfl⟩
abbrev main_cst_0 : Ref sig .tc := ⟨.hbm, 50, rfl⟩
abbrev main_v16 : Ref sig .tc := ⟨.hbm, 51, rfl⟩
abbrev main_v17 : Ref sig .tc := ⟨.hbm, 52, rfl⟩
abbrev main_c : Ref sig .tc := ⟨.hbm, 53, rfl⟩
abbrev main_v18 : Ref sig .tc := ⟨.hbm, 54, rfl⟩
abbrev main_v19 : Ref sig .tc := ⟨.hbm, 55, rfl⟩
abbrev main_c_1 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_c_2 : Ref sig .tc := ⟨.hbm, 63, rfl⟩
abbrev main_v26 : Ref sig .tc := ⟨.hbm, 64, rfl⟩
abbrev main_v27 : Ref sig .tc := ⟨.hbm, 65, rfl⟩
abbrev main_c_3 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩

abbrev nD : Nat := 1
abbrev τ : Topo := Topo.v7x

variable {F : FTy → Type} [FloatOps F]

class Facts₀ : Prop where
  slices_S600000x2_S600000x1_0_0 : S600000x2.Slices ![0, 0] S600000x1
  shapeCasts_S600000x1_S600000 : S600000x1.ShapeCasts S600000
  slices_S600000x2_S600000x1_0_1 : S600000x2.Slices ![0, 1] S600000x1
  bcast_S128_S1x128_1 : S128.BroadcastsInDim S1x128 (![1] : Fin 1 → Fin S1x128.rank)
  bcast_S1x128_S600000x128_0_1 : S1x128.BroadcastsInDim S600000x128 (![0, 1] : Fin 2 → Fin S600000x128.rank)
  bcast_S_S600000x128 : S_.BroadcastsInDim S600000x128 (![] : Fin 0 → Fin S600000x128.rank)
  bcast_S_S600000 : S_.BroadcastsInDim S600000 (![] : Fin 0 → Fin S600000.rank)
  bcast_S600000_S600000x1_0 : S600000.BroadcastsInDim S600000x1 (![0] : Fin 1 → Fin S600000x1.rank)
  dot_S600000x64_S64x128_S600000x128_1_0_0_1_n_n_wf : DotDims.WF S600000x64 S64x128 S600000x128 [1] [0] [0] [1] [] []
  dot_S600000x128_S128x128_S600000x128_1_0_0_1_n_n_wf : DotDims.WF S600000x128 S128x128 S600000x128 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1

variable [Facts₀]

def dot_S600000x64_S64x128_S600000x128_1_0_0_1_n_n : DotDims S600000x64 S64x128 S600000x128 where
  lhsContracting := [1]
  rhsContracting := [0]
  lhsNonContracting := [0]
  rhsNonContracting := [1]
  lhsBatch := []
  rhsBatch := []
  wf := dot_S600000x64_S64x128_S600000x128_1_0_0_1_n_n_wf
def dot_S600000x128_S128x128_S600000x128_1_0_0_1_n_n : DotDims S600000x128 S128x128 S600000x128 where
  lhsContracting := [1]
  rhsContracting := [0]
  lhsNonContracting := [0]
  rhsNonContracting := [1]
  lhsBatch := []
  rhsBatch := []
  wf := dot_S600000x128_S128x128_S600000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf

class Facts : Prop extends Facts₀ where

variable [Facts]
-- ==== Proof.EdgeFilter.lean ====
/-
  The edge filter of a continuous-filter convolution, on the extended reals: a two-layer perceptron with the
  shifted softplus  x ↦ log(1 + eˣ) − c  after each layer, c the f32 word nearest log 2. The softplus is
  computed in its overflow-free form  max(x, 0) + log1p(exp(−|x − 0|)), which is how both programs spell it.

  One edge's feature row `x : Fin 64 → EReal` goes through `W1 : 64 × 128`, `b1`, the activation, then
  `W2 : 128 × 128`, `b2`, the activation again: `filter x W1 b1 W2 b2 d` is output channel `d`. Nothing here
  depends on how many edges there are or how they are tiled.
-/
import Idealize.ShloMosaic.PureOps.Ideal
import Idealize.ShloMosaic.Lib.ValueIdx

noncomputable section

namespace Cert.EdgeFilter

open Idealize.ShloMosaic

/-- The f32 word both programs subtract after the softplus: the float nearest log 2. -/
abbrev log2Word : EReal := Ideal.ofBits .f32 0x3F317218#32

/-- `log(1 + eˣ) − log2Word` in the overflow-free form `max(x, 0) + log1p(exp(−|x − 0|))`, with `|y| = max y (−y)`. -/
def shiftedSoftplus (x : EReal) : EReal :=
  (max x 0 + Ideal.log1p (Ideal.exp (-(max (x - 0) (-(x - 0)))))) - log2Word

/-- Hidden channel `k` of one edge: the first layer and its activation. -/
def hidden (x : Fin 64 → EReal) (W1 : Fin 64 → Fin 128 → EReal) (b1 : Fin 128 → EReal) (k : Fin 128) : EReal :=
  shiftedSoftplus ((∑ j : Fin 64, x j * W1 j k) + b1 k)

/-- Output channel `d` of one edge's filter: the second layer over the hidden channels and its activation. -/
def filter (x : Fin 64 → EReal) (W1 : Fin 64 → Fin 128 → EReal) (b1 : Fin 128 → EReal)
    (W2 : Fin 128 → Fin 128 → EReal) (b2 : Fin 128 → EReal) (d : Fin 128) : EReal :=
  shiftedSoftplus ((∑ k : Fin 128, hidden x W1 b1 k * W2 k d) + b2 d)

end Cert.EdgeFilter

end
-- ==== Proof.BodyValue.lean ====
import proofs.«405003_j88914412962557_1_alg».proof.Proof.Gen.KernelIdeal.Frame
import proofs.«405003_j88914412962557_1_alg».proof.Proof.EdgeFilter
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.BodyValue

open Idealize.ShloMosaic Idealize.ShloMosaic.ValueIdx Cert.KernelIdeal Cert.KernelIdeal.Gen

/-! ### The first product at an index -/

theorem lhs_first_0 (i : S6000x128.Idx) (q : dot_S6000x64_S64x128_S6000x128_1_0_0_1_n_n.contr.Idx) :
    (dot_S6000x64_S64x128_S6000x128_1_0_0_1_n_n.lhsIdx i q 0).val = (i 0).val := by
  unfold DotDims.lhsIdx
  rw [dif_neg (show ¬(0 : Fin S6000x64.rank) ∈ dot_S6000x64_S64x128_S6000x128_1_0_0_1_n_n.lhsBatch by decide), dif_pos (show (0 : Fin S6000x64.rank) ∈ dot_S6000x64_S64x128_S6000x128_1_0_0_1_n_n.lhsNonContracting by decide)]
  rfl
theorem lhs_first_1 (i : S6000x128.Idx) (q : dot_S6000x64_S64x128_S6000x128_1_0_0_1_n_n.contr.Idx) :
    (dot_S6000x64_S64x128_S6000x128_1_0_0_1_n_n.lhsIdx i q 1).val = (q ⟨0, by decide⟩).val :=
  dot_S6000x64_S64x128_S6000x128_1_0_0_1_n_n.lhsIdx_val_of_single rfl i q
theorem rhs_first_0 (i : S6000x128.Idx) (q : dot_S6000x64_S64x128_S6000x128_1_0_0_1_n_n.contr.Idx) :
    (dot_S6000x64_S64x128_S6000x128_1_0_0_1_n_n.rhsIdx i q 0).val = (q ⟨0, by decide⟩).val :=
  dot_S6000x64_S64x128_S6000x128_1_0_0_1_n_n.rhsIdx_val_of_single rfl i q
theorem rhs_first_1 (i : S6000x128.Idx) (q : dot_S6000x64_S64x128_S6000x128_1_0_0_1_n_n.contr.Idx) :
    (dot_S6000x64_S64x128_S6000x128_1_0_0_1_n_n.rhsIdx i q 1).val = (i 1).val := by
  unfold DotDims.rhsIdx
  rw [dif_neg (show ¬(1 : Fin S64x128.rank) ∈ dot_S6000x64_S64x128_S6000x128_1_0_0_1_n_n.rhsBatch by decide), dif_pos (show (1 : Fin S64x128.rank) ∈ dot_S6000x64_S64x128_S6000x128_1_0_0_1_n_n.rhsNonContracting by decide)]
  rfl

/-- The first `tpu.matmul` onto a zero accumulator, at row `r` and column `c`: the sum over the 64 contracted
    coordinates of the products of the left operand's row and the right operand's column. -/
theorem matmul_first_apply {φ₁ φ₂ : FTy} (l : FVec Ideal S6000x64 φ₁) (w : FVec Ideal S64x128 φ₂) (r : Fin 6000) (c : Fin 128) :
    matmul dot_S6000x64_S64x128_S6000x128_1_0_0_1_n_n none l w (constant (F := Ideal) S6000x128 .f32 0x00000000#32) (ix2 r c)
      = ∑ k : Fin 64, l (ix2 r k) * w (ix2 k c) := by
  show FloatOps.matmul dot_S6000x64_S64x128_S6000x128_1_0_0_1_n_n none l w (constant (F := Ideal) S6000x128 .f32 0x00000000#32) (ix2 r c) = _
  rw [Ideal.matmul_constant_zero_apply, ← Equiv.sum_comp (ValueIdx.contrEquiv1 dot_S6000x64_S64x128_S6000x128_1_0_0_1_n_n 64 rfl rfl).symm]
  refine Finset.sum_congr rfl fun k _ => ?_
  have hk := ValueIdx.contrEquiv1_symm_val dot_S6000x64_S64x128_S6000x128_1_0_0_1_n_n 64 rfl rfl k
  have el : dot_S6000x64_S64x128_S6000x128_1_0_0_1_n_n.lhsIdx (ix2 r c) ((ValueIdx.contrEquiv1 dot_S6000x64_S64x128_S6000x128_1_0_0_1_n_n 64 rfl rfl).symm k) = ix2 r k := funext fun a => Fin.ext (by
    match a with
    | ⟨0, _⟩ => exact lhs_first_0 _ _
    | ⟨1, _⟩ => exact (lhs_first_1 _ _).trans hk)
  have er : dot_S6000x64_S64x128_S6000x128_1_0_0_1_n_n.rhsIdx (ix2 r c) ((ValueIdx.contrEquiv1 dot_S6000x64_S64x128_S6000x128_1_0_0_1_n_n 64 rfl rfl).symm k) = ix2 k c := funext fun a => Fin.ext (by
    match a with
    | ⟨0, _⟩ => exact (rhs_first_0 _ _).trans hk
    | ⟨1, _⟩ => exact rhs_first_1 _ _)
  rw [el, er]

/-! ### The second product at an index -/

theorem lhs_second_0 (i : S6000x128.Idx) (q : dot_S6000x128_S128x128_S6000x128_1_0_0_1_n_n.contr.Idx) :
    (dot_S6000x128_S128x128_S6000x128_1_0_0_1_n_n.lhsIdx i q 0).val = (i 0).val := by
  unfold DotDims.lhsIdx
  rw [dif_neg (show ¬(0 : Fin S6000x128.rank) ∈ dot_S6000x128_S128x128_S6000x128_1_0_0_1_n_n.lhsBatch by decide), dif_pos (show (0 : Fin S6000x128.rank) ∈ dot_S6000x128_S128x128_S6000x128_1_0_0_1_n_n.lhsNonContracting by decide)]
  rfl
theorem lhs_second_1 (i : S6000x128.Idx) (q : dot_S6000x128_S128x128_S6000x128_1_0_0_1_n_n.contr.Idx) :
    (dot_S6000x128_S128x128_S6000x128_1_0_0_1_n_n.lhsIdx i q 1).val = (q ⟨0, by decide⟩).val :=
  dot_S6000x128_S128x128_S6000x128_1_0_0_1_n_n.lhsIdx_val_of_single rfl i q
theorem rhs_second_0 (i : S6000x128.Idx) (q : dot_S6000x128_S128x128_S6000x128_1_0_0_1_n_n.contr.Idx) :
    (dot_S6000x128_S128x128_S6000x128_1_0_0_1_n_n.rhsIdx i q 0).val = (q ⟨0, by decide⟩).val :=
  dot_S6000x128_S128x128_S6000x128_1_0_0_1_n_n.rhsIdx_val_of_single rfl i q
theorem rhs_second_1 (i : S6000x128.Idx) (q : dot_S6000x128_S128x128_S6000x128_1_0_0_1_n_n.contr.Idx) :
    (dot_S6000x128_S128x128_S6000x128_1_0_0_1_n_n.rhsIdx i q 1).val = (i 1).val := by
  unfold DotDims.rhsIdx
  rw [dif_neg (show ¬(1 : Fin S128x128.rank) ∈ dot_S6000x128_S128x128_S6000x128_1_0_0_1_n_n.rhsBatch by decide), dif_pos (show (1 : Fin S128x128.rank) ∈ dot_S6000x128_S128x128_S6000x128_1_0_0_1_n_n.rhsNonContracting by decide)]
  rfl

/-- The second `tpu.matmul` onto a zero accumulator, at row `r` and column `c`: the sum over the 128 contracted
    coordinates of the products of the left operand's row and the right operand's column. -/
theorem matmul_second_apply {φ₁ φ₂ : FTy} (l : FVec Ideal S6000x128 φ₁) (w : FVec Ideal S128x128 φ₂) (r : Fin 6000) (c : Fin 128) :
    matmul dot_S6000x128_S128x128_S6000x128_1_0_0_1_n_n none l w (constant (F := Ideal) S6000x128 .f32 0x00000000#32) (ix2 r c)
      = ∑ k : Fin 128, l (ix2 r k) * w (ix2 k c) := by
  show FloatOps.matmul dot_S6000x128_S128x128_S6000x128_1_0_0_1_n_n none l w (constant (F := Ideal) S6000x128 .f32 0x00000000#32) (ix2 r c) = _
  rw [Ideal.matmul_constant_zero_apply, ← Equiv.sum_comp (ValueIdx.contrEquiv1 dot_S6000x128_S128x128_S6000x128_1_0_0_1_n_n 128 rfl rfl).symm]
  refine Finset.sum_congr rfl fun k _ => ?_
  have hk := ValueIdx.contrEquiv1_symm_val dot_S6000x128_S128x128_S6000x128_1_0_0_1_n_n 128 rfl rfl k
  have el : dot_S6000x128_S128x128_S6000x128_1_0_0_1_n_n.lhsIdx (ix2 r c) ((ValueIdx.contrEquiv1 dot_S6000x128_S128x128_S6000x128_1_0_0_1_n_n 128 rfl rfl).symm k) = ix2 r k := funext fun a => Fin.ext (by
    match a with
    | ⟨0, _⟩ => exact lhs_second_0 _ _
    | ⟨1, _⟩ => exact (lhs_second_1 _ _).trans hk)
  have er : dot_S6000x128_S128x128_S6000x128_1_0_0_1_n_n.rhsIdx (ix2 r c) ((ValueIdx.contrEquiv1 dot_S6000x128_S128x128_S6000x128_1_0_0_1_n_n 128 rfl rfl).symm k) = ix2 k c := funext fun a => Fin.ext (by
    match a with
    | ⟨0, _⟩ => exact (rhs_second_0 _ _).trans hk
    | ⟨1, _⟩ => exact rhs_second_1 _ _)
  rw [el, er]

/-! ### The layout operations and the activation at an index -/

/-- A bias row `[1, 128]`, cast to its own shape and broadcast over the 6000 rows, reads its one row. -/
theorem bias_apply (v : Vec Ideal S1x128 .f32) (r : Fin 6000) (c : Fin 128) :
    broadcastTo S6000x128 (shapeCast S1x128 v shapeCasts_S1x128_S1x128) broadcasts_S1x128_S6000x128 (ix2 r c)
      = v (ix2 0 c) := by
  rw [shapeCast_self]
  exact broadcastTo_1b_ab_apply v broadcasts_S1x128_S6000x128 r c

/-- The activation on one extended real, as the kernel spells it: the comparison `t - 0 ≠ t - 0` is false, so the
    selection keeps `max t 0 + log1p (exp (0 - |t - 0|))`, and `0 - a = -a`. -/
theorem softplus_scalar (t : EReal) :
    Scalar.select (Ideal.cmp .one (t - Ideal.ofBits .f32 0x00000000#32) (t - Ideal.ofBits .f32 0x00000000#32)) (t + Ideal.ofBits .f32 0x00000000#32)
        (max t (Ideal.ofBits .f32 0x00000000#32) + Ideal.log1p (Ideal.exp (Ideal.ofBits .f32 0x00000000#32 - max (t - Ideal.ofBits .f32 0x00000000#32) (-(t - Ideal.ofBits .f32 0x00000000#32)))))
      - Ideal.ofBits .f32 0x3F317218#32 = Cert.EdgeFilter.shiftedSoftplus t := by
  rw [Ideal.ofBits_zero_f32]
  have hc : Ideal.cmp .one (t - 0) (t - 0) = 0#1 := by simp [Ideal.cmp]
  rw [hc, select_zero, zero_sub]
  rfl

/-- The same over a block: the kernel's chain of elementwise operations after a layer, read at an index. -/
theorem softplus_apply (y : FVec Ideal S6000x128 .f32) (i : S6000x128.Idx) :
    subf (select (cmpf .one (subf y (broadcast S6000x128 (Scalar.ofBits (F := Ideal) .f32 0x00000000#32))) (subf y (broadcast S6000x128 (Scalar.ofBits (F := Ideal) .f32 0x00000000#32)))) (addf y (broadcast S6000x128 (Scalar.ofBits (F := Ideal) .f32 0x00000000#32)))
        (addf (maximumf y (broadcast S6000x128 (Scalar.ofBits (F := Ideal) .f32 0x00000000#32))) (log1p (exp (subf (broadcast S6000x128 (Scalar.ofBits (F := Ideal) .f32 0x00000000#32)) (absf (subf y (broadcast S6000x128 (Scalar.ofBits (F := Ideal) .f32 0x00000000#32)))))))))
      (broadcast S6000x128 (Scalar.ofBits (F := Ideal) .f32 0x3F317218#32)) i
      = Cert.EdgeFilter.shiftedSoftplus (y i) :=
  softplus_scalar (y i)

/-! ### The body's value -/

/-- The second layer's pre-activation at row `r`, channel `d`: the hidden channels of that row against column `d` of the
    second weights, plus the second bias. -/
theorem pay2_apply (v0 : Vec Ideal S6000x64 .f32) (v2 : Vec Ideal S64x128 .f32) (v5 : Vec Ideal S1x128 .f32)
    (v26 : Vec Ideal S128x128 .f32) (v29 : Vec Ideal S1x128 .f32) (r : Fin 6000) (d : Fin 128) :
    k0_pay2 (F := Ideal) v0 v2 v5 v26 v29 (ix2 r d)
      = (∑ k : Fin 128, Cert.EdgeFilter.hidden (fun j => v0 (ix2 r j)) (fun j k => v2 (ix2 j k)) (fun k => v5 (ix2 0 k)) k
            * v26 (ix2 k d)) + v29 (ix2 0 d) := by
  unfold k0_pay2
  refine congrArg₂ (· + ·) ?_ (bias_apply v29 r d)
  refine (matmul_second_apply _ _ r d).trans ?_
  refine Finset.sum_congr rfl fun k _ => ?_
  refine congrArg (· * v26 (ix2 k d)) ?_
  refine (softplus_apply _ (ix2 r k)).trans ?_
  unfold Cert.EdgeFilter.hidden
  refine congrArg Cert.EdgeFilter.shiftedSoftplus ?_
  exact congrArg₂ (· + ·) (matmul_first_apply _ _ r k) (bias_apply v5 r k)

/-- The whole-block rectangle starts at the origin. -/
theorem offset_zero : (![0, 0] : Fin 2 → Nat) = fun _ => 0 := funext fun a => by fin_cases a <;> rfl

/-- The block the body leaves at row `r`, channel `d`: the gathered block's entry times the filter of edge row `r`. -/
theorem out_apply (x0 : Vec Ideal S6000x64 .f32) (x1 : Vec Ideal S6000x128 .f32) (x2 : Vec Ideal S64x128 .f32)
    (x3 : Vec Ideal S1x128 .f32) (x4 : Vec Ideal S128x128 .f32) (x5 : Vec Ideal S1x128 .f32) (r : Fin 6000) (d : Fin 128) :
    out0_6 (F := Ideal) x0 x1 x2 x3 x4 x5 (ix2 r d)
      = x1 (ix2 r d) * Cert.EdgeFilter.filter (fun j => x0 (ix2 r j)) (fun j k => x2 (ix2 j k)) (fun k => x3 (ix2 0 k))
          (fun k d' => x4 (ix2 k d')) (fun d' => x5 (ix2 0 d')) d := by
  unfold out0_6
  rw [View.canon_unit_zero offset_zero]
  simp only [View.ld_unit_zero (S := S6000x64) offset_zero, View.ld_unit_zero (S := S6000x128) offset_zero,
    View.ld_unit_zero (S := S64x128) offset_zero, View.ld_unit_zero (S := S1x128) offset_zero,
    View.ld_unit_zero (S := S128x128) offset_zero]
  unfold k0_pay1 k0_pay3 k0_pay5 k0_pay6 k0_pay7 k0_pay4 k0_pay8
  refine congrArg₂ (· * ·) (congrFun (shapeCast_self x1 shapeCasts_S6000x128_S6000x128) (ix2 r d)) ?_
  refine (softplus_apply _ (ix2 r d)).trans ?_
  unfold Cert.EdgeFilter.filter
  exact congrArg Cert.EdgeFilter.shiftedSoftplus (pay2_apply x0 x2 x3 x4 x5 r d)

end Cert.KernelIdeal.BodyValue

end
-- ==== Proof.Messages.lean ====
/-
  The message array: what the tiled kernel leaves in its output array, as ONE function of the whole arrays.

  The grid has 100 points; point t stages rows 6000·t … 6000·t + 5999 of the edge features and of the gathered node
  rows, the two weight matrices and the two bias rows whole, and writes back rows 6000·t … of the output. Row r of
  block t is row 6000·t + r of the arrays, so the block the body computes is the restriction to those rows of
      msgs[e, d] = gathered[e, d] · filter(edges[e, :])[d],
  and the 100 blocks tile the 600000 rows: the output array ends as msgs.
-/
import proofs.«405003_j88914412962557_1_alg».proof.Proof.Gen.KernelIdeal.Frame
import proofs.«405003_j88914412962557_1_alg».proof.Proof.EdgeFilter
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Messages

open Idealize.ShloMosaic Idealize.ShloMosaic.ValueIdx Idealize.ShloMosaic.TcCoe Idealize.SL.Sem
open Cert.KernelIdeal Cert.KernelIdeal.Gen
open Cert.KernelIdeal.Facts₀ Cert.KernelIdeal.Facts

/-- The messages as a function of the whole arrays: the gathered node row of edge `e` times the edge's filter,
    channel by channel. The biases are the rank-one arguments. -/
def msgs (G : Vec Ideal S600000x128 .f32) (E : Vec Ideal S600000x64 .f32) (W1 : Vec Ideal S64x128 .f32)
    (b1 : Vec Ideal S128 .f32) (W2 : Vec Ideal S128x128 .f32) (b2 : Vec Ideal S128 .f32) : Vec Ideal S600000x128 .f32 :=
  fun i => G i * Cert.EdgeFilter.filter (fun j => E (ix2 (i 0 : Fin 600000) j)) (fun j k => W1 (ix2 j k)) (fun k => b1 (ix1 k))
    (fun k d => W2 (ix2 k d)) (fun d => b2 (ix1 d)) (i 1 : Fin 128)

/-- What the body is assumed to compute on one block (proved in its own module): at row r and channel d the
    gathered block's entry times the filter of row r of the edge block. -/
def BodyComputes : Prop :=
  ∀ (x0 : Vec Ideal S6000x64 .f32) (x1 : Vec Ideal S6000x128 .f32) (x2 : Vec Ideal S64x128 .f32)
    (x3 : Vec Ideal S1x128 .f32) (x4 : Vec Ideal S128x128 .f32) (x5 : Vec Ideal S1x128 .f32) (r : Fin 6000) (d : Fin 128),
    out0_6 (F := Ideal) x0 x1 x2 x3 x4 x5 (ix2 r d)
      = x1 (ix2 r d) * Cert.EdgeFilter.filter (fun j => x0 (ix2 r j)) (fun j k => x2 (ix2 j k)) (fun k => x3 (ix2 0 k))
          (fun k d' => x4 (ix2 k d')) (fun d' => x5 (ix2 0 d')) d

variable (m : (ℓ : Loc nD τ sig) → Buf (Elt Ideal) ℓ)

/-- The bias rows the region finds are the rank-one arguments reshaped to one row. -/
theorem bias1_row (c : Dev nD) (k : Fin 128) :
    (V m c main_v5 : Vec Ideal S1x128 .f32) (ix2 0 k) = (m ((c : Thread nD τ).loc main_arg4) : Vec Ideal S128 .f32) (ix1 k) := by
  have e : (V m c main_v5 : Vec Ideal S1x128 .f32)
      = shapeCast S1x128 (m ((c : Thread nD τ).loc main_arg4) : Vec Ideal S128 .f32) Facts₀.shapeCasts_S128_S1x128 := by
    dsimp only [V, V0]
    simp only [hostOps0, hostOps0_1, hostOps0_2, List.flatten_cons, List.flatten_nil, List.append_nil, List.cons_append,
      List.nil_append]
    after_results
    rfl
  rw [e]
  exact shapeCast_a_1a_apply _ _ 0 k

theorem bias2_row (c : Dev nD) (k : Fin 128) :
    (V m c main_v6 : Vec Ideal S1x128 .f32) (ix2 0 k) = (m ((c : Thread nD τ).loc main_arg6) : Vec Ideal S128 .f32) (ix1 k) := by
  have e : (V m c main_v6 : Vec Ideal S1x128 .f32)
      = shapeCast S1x128 (m ((c : Thread nD τ).loc main_arg6) : Vec Ideal S128 .f32) Facts₀.shapeCasts_S128_S1x128 := by
    dsimp only [V, V0]
    simp only [hostOps0, hostOps0_1, hostOps0_2, List.flatten_cons, List.flatten_nil, List.append_nil, List.cons_append,
      List.nil_append]
    after_results
    rfl
  rw [e]
  exact shapeCast_a_1a_apply _ _ 0 k

/-- The printed index maps, decided once over the 100 grid points: the three row-tiled windows are at block t,
    column block 0; the four whole-array windows at block (0, 0). -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- What point t writes back is block t of `msgs` of the arrays as the region finds them. -/
theorem flushed_eq (hbody : BodyComputes) (c : Dev nD) (t : Fin cfg0.N) :
    (dats m 0 c).flushed 6 t = ((cfg0.win 6).blk t).view.read (Elt Ideal)
      (msgs (V m c main_v4) (m ((c : Thread nD τ).loc main_arg1)) (m ((c : Thread nD τ).loc main_arg3))
        (m ((c : Thread nD τ).loc main_arg4)) (m ((c : Thread nD τ).loc main_arg5)) (m ((c : Thread nD τ).loc main_arg6))) := by
  show (cfg0.win 6).cut (grid0.coords t) ((dats m 0 c).after 6 t) = _
  rw [after0_6]
  obtain ⟨e00, e01, e10, e11, e20, e21, e30, e31, e40, e41, e50, e51, e60, e61⟩ := index_facts t
  funext j
  show out0_6 (iblk m c 0 t) (iblk m c 1 t) (iblk m c 2 t) (iblk m c 3 t) (iblk m c 4 t) (iblk m c 5 t) j
      = msgs (V m c main_v4) (m ((c : Thread nD τ).loc main_arg1)) (m ((c : Thread nD τ).loc main_arg3))
        (m ((c : Thread nD τ).loc main_arg4)) (m ((c : Thread nD τ).loc main_arg5)) (m ((c : Thread nD τ).loc main_arg6))
        (((cfg0.win 6).blk t).view.emb j)
  obtain ⟨r, d, rfl⟩ : ∃ (r : Fin 6000) (d : Fin 128), j = ix2 r d := ⟨j 0, j 1, eq_ix2 j⟩
  refine (hbody (iblk m c 0 t) (iblk m c 1 t) (iblk m c 2 t) (iblk m c 3 t) (iblk m c 4 t) (iblk m c 5 t) r d).trans ?_
  unfold msgs
  have hG : iblk m c 1 t (ix2 r d) = V m c main_v4 (((cfg0.win 6).blk t).view.emb (ix2 r d)) := by
    show V m c main_v4 (((cfg0.win 1).blk t).view.emb (ix2 r d)) = V m c main_v4 (((cfg0.win 6).blk t).view.emb (ix2 r d))
    refine congrArg (V m c main_v4) (funext fun a => Fin.ext ?_)
    match a with
    | ⟨0, _⟩ => show win0_1.index t (0 : Fin 2) * 6000 + 1 * r.val = win0_6.index t (0 : Fin 2) * 6000 + 1 * r.val; omega
    | ⟨1, _⟩ => show win0_1.index t (1 : Fin 2) * 128 + 1 * d.val = win0_6.index t (1 : Fin 2) * 128 + 1 * d.val; omega
  have hE : (fun j : Fin 64 => iblk m c 0 t (ix2 r j))
      = fun j : Fin 64 => (m ((c : Thread nD τ).loc main_arg1) : Vec Ideal S600000x64 .f32) (ix2 ((((cfg0.win 6).blk t).view.emb (ix2 r d) 0 : Fin 600000)) j) := by
    funext j
    show V m c main_arg1 (((cfg0.win 0).blk t).view.emb (ix2 r j)) = _
    rw [V_main_arg1]
    refine congrArg (m ((c : Thread nD τ).loc main_arg1) : Vec Ideal S600000x64 .f32) (funext fun a => Fin.ext ?_)
    match a with
    | ⟨0, _⟩ => show win0_0.index t (0 : Fin 2) * 6000 + 1 * r.val = win0_6.index t (0 : Fin 2) * 6000 + 1 * r.val; omega
    | ⟨1, _⟩ => show win0_0.index t (1 : Fin 2) * 64 + 1 * j.val = j.val; omega
  have hW1 : (fun (j : Fin 64) (k : Fin 128) => iblk m c 2 t (ix2 j k))
      = fun (j : Fin 64) (k : Fin 128) => (m ((c : Thread nD τ).loc main_arg3) : Vec Ideal S64x128 .f32) (ix2 j k) := by
    funext j k
    show V m c main_arg3 (((cfg0.win 2).blk t).view.emb (ix2 j k)) = _
    rw [V_main_arg3]
    refine congrArg (m ((c : Thread nD τ).loc main_arg3) : Vec Ideal S64x128 .f32) (funext fun a => Fin.ext ?_)
    match a with
    | ⟨0, _⟩ => show win0_2.index t (0 : Fin 2) * 64 + 1 * j.val = j.val; omega
    | ⟨1, _⟩ => show win0_2.index t (1 : Fin 2) * 128 + 1 * k.val = k.val; omega
  have hW2 : (fun (k : Fin 128) (d' : Fin 128) => iblk m c 4 t (ix2 k d'))
      = fun (k : Fin 128) (d' : Fin 128) => (m ((c : Thread nD τ).loc main_arg5) : Vec Ideal S128x128 .f32) (ix2 k d') := by
    funext k d'
    show V m c main_arg5 (((cfg0.win 4).blk t).view.emb (ix2 k d')) = _
    rw [V_main_arg5]
    refine congrArg (m ((c : Thread nD τ).loc main_arg5) : Vec Ideal S128x128 .f32) (funext fun a => Fin.ext ?_)
    match a with
    | ⟨0, _⟩ => show win0_4.index t (0 : Fin 2) * 128 + 1 * k.val = k.val; omega
    | ⟨1, _⟩ => show win0_4.index t (1 : Fin 2) * 128 + 1 * d'.val = d'.val; omega
  have hb1 : (fun k : Fin 128 => iblk m c 3 t (ix2 0 k))
      = fun k : Fin 128 => (m ((c : Thread nD τ).loc main_arg4) : Vec Ideal S128 .f32) (ix1 k) := by
    funext k
    show V m c main_v5 (((cfg0.win 3).blk t).view.emb (ix2 0 k)) = _
    have hi : ((cfg0.win 3).blk t).view.emb (ix2 (0 : Fin 1) k) = ix2 (0 : Fin 1) k := by
      funext a; apply Fin.ext
      match a with
      | ⟨0, _⟩ => show win0_3.index t (0 : Fin 2) * 1 + 1 * 0 = 0; omega
      | ⟨1, _⟩ => show win0_3.index t (1 : Fin 2) * 128 + 1 * k.val = k.val; omega
    rw [hi]
    exact bias1_row m c k
  have hb2 : (fun d' : Fin 128 => iblk m c 5 t (ix2 0 d'))
      = fun d' : Fin 128 => (m ((c : Thread nD τ).loc main_arg6) : Vec Ideal S128 .f32) (ix1 d') := by
    funext k
    show V m c main_v6 (((cfg0.win 5).blk t).view.emb (ix2 0 k)) = _
    have hi : ((cfg0.win 5).blk t).view.emb (ix2 (0 : Fin 1) k) = ix2 (0 : Fin 1) k := by
      funext a; apply Fin.ext
      match a with
      | ⟨0, _⟩ => show win0_5.index t (0 : Fin 2) * 1 + 1 * 0 = 0; omega
      | ⟨1, _⟩ => show win0_5.index t (1 : Fin 2) * 128 + 1 * k.val = k.val; omega
    rw [hi]
    exact bias2_row m c k
  have hd : ((((cfg0.win 6).blk t).view.emb (ix2 r d)) 1 : Fin 128) = d := by
    apply Fin.ext
    show win0_6.index t (1 : Fin 2) * 128 + 1 * d.val = d.val
    omega
  rw [hG, hE, hW1, hW2, hb1, hb2, hd]

/-- Every row of the output array lies in some point's block: row `e` in the block of point `e / 6000`. -/
theorem covered (i : S600000x128.Idx) :
    ∃ t : Fin cfg0.N, (cfg0.win 6).flush t = true ∧ i ∈ ((cfg0.win 6).blk t).view.set := by
  have hi0 : (i 0).val < 600000 := (i 0).isLt
  have hi1 : (i 1).val < 128 := (i 1).isLt
  have hN : cfg0.N = 100 := N_0
  let t : Fin cfg0.N := ⟨(i 0).val / 6000, by rw [hN]; omega⟩
  obtain ⟨-, -, -, -, -, -, -, -, -, -, -, -, e60, e61⟩ := index_facts t
  have ht : t.val = (i 0).val / 6000 := rfl
  refine ⟨t, flush0_6 t, ?_⟩
  show i ∈ ((View.whole main_v7).slice (win0_6.rect t)).set
  rw [View.set_slice_whole, Rect.mem_set_unit]
  intro a
  match a with
  | ⟨0, _⟩ => show win0_6.index t (0 : Fin 2) * 6000 ≤ (i 0).val ∧ (i 0).val < win0_6.index t (0 : Fin 2) * 6000 + 6000; omega
  | ⟨1, _⟩ => show win0_6.index t (1 : Fin 2) * 128 ≤ (i 1).val ∧ (i 1).val < win0_6.index t (1 : Fin 2) * 128 + 128; omega

/-- The output array after the run is `msgs` of the gathered rows as the region finds them and of the arguments. -/
theorem final (hbody : BodyComputes) (c : Dev nD) :
    (dats m 0 c).arrAt 6 cfg0.N
      = msgs (V m c main_v4) (m ((c : Thread nD τ).loc main_arg1)) (m ((c : Thread nD τ).loc main_arg3))
          (m ((c : Thread nD τ).loc main_arg4)) (m ((c : Thread nD τ).loc main_arg5)) (m ((c : Thread nD τ).loc main_arg6)) :=
  (dats m 0 c).arrAt_eq_of_cover 6 _ (fun t _ => flushed_eq m hbody c t) covered

end Cert.KernelIdeal.Messages

end
-- ==== Proof.EdgeEnds.lean ====
/-
  The end-node column of the edge table and its use as a row index into the node table.

  Column 1 of `edges_i : i32[600000, 2]` holds, per edge, the node whose features the edge gathers. An index `i`
  is read the numpy way: a negative `i` counts from the end, so row `i + 100000` is meant; the admitted indices
  are `−100000 ≤ i < 100000` as signed 32-bit words (`InRange`), which is exactly where the wrapped index lands
  inside the table's 100000 rows.
-/
import proofs.«405003_j88914412962557_1_alg».proof.Proof.Gen.KernelIdeal

noncomputable section

namespace Cert.KernelIdeal.EdgeEnds

open Idealize.ShloMosaic Cert.KernelIdeal
open Cert.KernelIdeal.Facts₀ Cert.KernelIdeal.Facts

/-- `−100000 ≤ w < 100000`, both comparisons signed, the lower bound as its two's-complement word. -/
def InRange (w : BitVec 32) : Prop :=
  IntOp.cmpi .sge w 4294867296#32 = 1#1 ∧ IntOp.cmpi .slt w 100000#32 = 1#1

/-- Column 1 of the edge table as a vector over the edges: the slice `[:, 1:2]` reshaped to rank one. -/
abbrev endsOf (x2 : IVec S600000x2 32) : IVec S600000 32 :=
  shapeCast S600000 (extractStridedSlice S600000x1 ![0, 1] x2 slices_S600000x2_S600000x1_0_1) shapeCasts_S600000x1_S600000

/-- Column 0 of the edge table as a vector over the edges. -/
abbrev startsOf (x2 : IVec S600000x2 32) : IVec S600000 32 :=
  shapeCast S600000 (extractStridedSlice S600000x1 ![0, 0] x2 slices_S600000x2_S600000x1_0_0) shapeCasts_S600000x1_S600000

/-- The numpy reading of a column of indices, as an index operand of shape [600000, 1]: a negative entry has
    100000 added, the others are kept. -/
abbrev wrapped (v : IVec S600000 32) : IVec S600000x1 32 :=
  broadcastInDim S600000x1 ![0] bcast_S600000_S600000x1_0
    (select (cmpi .slt v (broadcastInDim S600000 ![] bcast_S_S600000 (constantI S_ 32 0#32)))
      (addi v (broadcastInDim S600000 ![] bcast_S_S600000 (constantI S_ 32 100000#32))) v)

end Cert.KernelIdeal.EdgeEnds

end
-- ==== Proof.EndsRange.lean ====
import proofs.«405003_j88914412962557_1_alg».proof.Defs
import proofs.«405003_j88914412962557_1_alg».proof.Proof.Gen.Pre_finite_inputs
import proofs.«405003_j88914412962557_1_alg».proof.Proof.EdgeEnds
import Idealize.ShloMosaic.Lib.ValueIdx
import Idealize.ShloMosaic.Lib.ReduceAll

noncomputable section

namespace Cert.KernelIdeal.EdgeEnds

open Idealize.ShloMosaic Idealize.ShloMosaic.ValueIdx Idealize.SL.Sem Cert.KernelIdeal
open Cert.KernelIdeal.Facts₀ Cert.KernelIdeal.Facts

/-- A rank-zero shape has exactly one index. -/
private instance subsingleton_scalar_idx : Subsingleton Cert.Pre_finite_inputs.S_.Idx :=
  ⟨fun _ _ => funext fun d => d.elim0⟩

/-- The last conjunct of the printed precondition, read back: `all((ends ≥ −100000) ∧ (ends < 100000))` being
    true says each entry of column 1 of the edge table lies in `[−100000, 100000)`. The precondition's value at
    its one index is an `and` of the six finiteness conjuncts with the reduction by `and` of the elementwise
    test; an `and` of `i1` words is 1 only if both are, and a reduction by `and` over all axes that is 1 met
    only 1s, so the elementwise test is 1 at every edge, and it is again an `and` of the two comparisons. -/
theorem ends_in_range (m : (ℓ : Loc nD τ sig) → Buf (Elt Ideal) ℓ) (h : Cert.Pre_KernelIdeal m) (c : Dev nD) (e : Fin 600000) :
    InRange (endsOf (m ((c.tc : Thread nD τ).loc main_arg2)) (ix1 e)) := by
  have h0 := congrFun (h c) ValueIdx.ix0
  dsimp only [Cert.Pre_finite_inputs.fn, Cert.Pre_finite_inputs.fn_part1, Cert.Pre_finite_inputs.fn_part2] at h0
  -- the outer `and`: its right operand is the reduction of the elementwise range test
  obtain ⟨-, hall⟩ := IntOp.andi_eq_one.1 h0
  -- every element of the reduced array is 1
  have he := Host.reduce_andi_all _ _ _ _ _ hall (ix1 e)
  -- the elementwise test is the `and` of the two signed comparisons against the broadcast bounds
  obtain ⟨hge, hlt⟩ := IntOp.andi_eq_one.1 he
  exact ⟨hge, hlt⟩

end Cert.KernelIdeal.EdgeEnds

end
-- ==== Proof.TakeRows.lean ====
/-
  The guarded row gather before the region is the plain gather when every index is in range.

  The host computes the rows of the node table at the end-node indices the numpy way: a negative index has 100000
  added (the wrapped index); a guard bit per edge says whether the wrapped index lies in [0, 99999], taken as the
  conjunction over the one index column; the rows are gathered at the wrapped indices; and where the guard fails the
  row is replaced by the NaN word. For an index i with −100000 ≤ i < 100000 the wrapped index is in [0, 99999], so
  the guard is the set bit at every edge and the select keeps every gathered row.
-/
import proofs.«405003_j88914412962557_1_alg».proof.Proof.Gen.KernelIdeal.Frame
import proofs.«405003_j88914412962557_1_alg».proof.Proof.EdgeEnds
import Idealize.ShloMosaic.Lib.ValueIdx
import Idealize.ShloMosaic.Lib.StableHlo.Run
import Idealize.ShloMosaic.PureOps.Reduce

noncomputable section

namespace Cert.KernelIdeal.TakeRows

open Idealize.ShloMosaic Idealize.ShloMosaic.ValueIdx Idealize.ShloMosaic.TcCoe Idealize.SL.Sem Cert.KernelIdeal Cert.KernelIdeal.Gen Cert.KernelIdeal.EdgeEnds
open Cert.KernelIdeal.Facts₀ Cert.KernelIdeal.Facts

variable {F : FTy → Type} [FloatOps F]

/-! ## One index word -/

/-- The bit made from a Boolean is set exactly when the Boolean holds. -/
theorem ofBool_one (b : Bool) : BitVec.ofBool b = 1#1 ↔ b = true := by cases b <;> decide

/-- The signed value of a 32-bit word from its unsigned value: itself below 2³¹, 2³² less from there on. -/
theorem toInt_cond (x : BitVec 32) :
    x.toInt = if 2 * x.toNat < 4294967296 then (x.toNat : Int) else (x.toNat : Int) - 4294967296 := by
  rw [BitVec.toInt_eq_toNat_cond]; rfl

/-- For a signed word i with −100000 ≤ i < 100000, the word w that is i + 100000 for negative i and i otherwise
    satisfies 0 ≤ w ≤ 99999: both signed comparisons give the set bit, and so does their conjunction.
    A negative i is at least −100000, so i + 100000 does not wrap and lies in [0, 100000); a non-negative i is
    below 100000 already. -/
theorem wrapped_in_range (i : BitVec 32)
    (hlo : IntOp.cmpi .sge i 4294867296#32 = 1#1) (hhi : IntOp.cmpi .slt i 100000#32 = 1#1) :
    IntOp.andi
      (IntOp.cmpi .sge (Scalar.select (IntOp.cmpi .slt i 0#32) (IntOp.addi i 100000#32) i) 0#32)
      (IntOp.cmpi .sle (Scalar.select (IntOp.cmpi .slt i 0#32) (IntOp.addi i 100000#32) i) 99999#32) = 1#1 := by
  have c1 : (4294867296#32 : BitVec 32).toInt = -100000 := by decide
  have c2 : (100000#32 : BitVec 32).toInt = 100000 := by decide
  have c0 : (0#32 : BitVec 32).toInt = 0 := by decide
  have c3 : (99999#32 : BitVec 32).toInt = 99999 := by decide
  simp only [IntOp.cmpi, ofBool_one, BitVec.sle, BitVec.slt, decide_eq_true_eq, c1, c2] at hlo hhi
  have hn := i.isLt
  have hadd : (i + 100000#32).toNat = (i.toNat + 100000) % 4294967296 := by
    rw [BitVec.toNat_add]; rfl
  by_cases hneg : i.toInt < 0
  · -- a negative index: the wrapped word is i + 100000
    have hs : IntOp.cmpi .slt i 0#32 = 1#1 := by
      simp only [IntOp.cmpi, ofBool_one, BitVec.slt, decide_eq_true_eq, c0]; exact hneg
    have hsel : ∀ (a b : BitVec 32), Scalar.select 1#1 a b = a := fun a b => if_pos rfl
    rw [hs, hsel]
    show IntOp.andi (IntOp.cmpi .sge (i + 100000#32) 0#32) (IntOp.cmpi .sle (i + 100000#32) 99999#32) = 1#1
    have e1 : IntOp.cmpi .sge (i + 100000#32) 0#32 = 1#1 := by
      simp only [IntOp.cmpi, ofBool_one, BitVec.sle, decide_eq_true_eq, c0]
      rw [toInt_cond] at hlo hhi hneg ⊢
      rw [hadd]
      split_ifs at hlo hhi hneg ⊢ <;> omega
    have e2 : IntOp.cmpi .sle (i + 100000#32) 99999#32 = 1#1 := by
      simp only [IntOp.cmpi, ofBool_one, BitVec.sle, decide_eq_true_eq, c3]
      rw [toInt_cond] at hlo hhi hneg ⊢
      rw [hadd]
      split_ifs at hlo hhi hneg ⊢ <;> omega
    rw [e1, e2]; rfl
  · -- a non-negative index is kept
    have hs : IntOp.cmpi .slt i 0#32 = 0#1 := by
      simp only [IntOp.cmpi, BitVec.slt, c0, decide_eq_false hneg]; rfl
    have hsel : ∀ (a b : BitVec 32), Scalar.select 0#1 a b = b := fun a b => if_neg (by decide)
    rw [hs, hsel]
    have e1 : IntOp.cmpi .sge i 0#32 = 1#1 := by
      simp only [IntOp.cmpi, ofBool_one, BitVec.sle, decide_eq_true_eq, c0]; omega
    have e2 : IntOp.cmpi .sle i 99999#32 = 1#1 := by
      simp only [IntOp.cmpi, ofBool_one, BitVec.sle, decide_eq_true_eq, c3]; omega
    rw [e1, e2]; rfl

/-! ## The guard is the set bit everywhere -/

/-- A left fold of the one-bit conjunction from the set bit over entries that are all the set bit is the set bit. -/
theorem foldl_andi_one {ι : Type} (x : ι → BitVec 1) (hx : ∀ i, x i = 1#1) (l : List ι) :
    l.foldl (fun r i => IntOp.andi r (x i)) 1#1 = 1#1 := by
  induction l with
  | nil => rfl
  | cons a l ih =>
    rw [List.foldl_cons, hx a, show IntOp.andi 1#1 1#1 = (1#1 : BitVec 1) from by decide]
    exact ih

/-- The wrapped index column read at a row is the wrapped word of some entry of the index vector. -/
theorem wrapped_apply (v : IVec S600000 32) (i : S600000x1.Idx) :
    ∃ k : S600000.Idx, wrapped v i
      = Scalar.select (IntOp.cmpi .slt (v k) 0#32) (IntOp.addi (v k) 100000#32) (v k) :=
  ⟨_, rfl⟩

/-- With every index in range, the conjunction over the one index column of "0 ≤ wrapped index ≤ 99999" is the
    set bit at every edge: the reduction folds the conjunction from the set bit over entries each of which is the
    set bit. -/
theorem guard_one (v : IVec S600000 32) (hv : ∀ k : S600000.Idx, InRange (v k)) (j : S600000.Idx) :
    Host.reduce IntOp.andi
      (andi
        (cmpi .sge (wrapped v) (broadcastInDim S600000x1 ![] Facts₀.bcast_S_S600000x1 (constantI S_ 32 0#32)))
        (cmpi .sle (wrapped v)
          (broadcastInDim S600000x1 ![0, 1] Facts₀.bcast_S1x1_S600000x1_0_1
            (broadcastInDim S1x1 ![1] Facts₀.bcast_S1_S1x1_1 (constantI S1 32 99999#32)))))
      (constantI S_ 1 1#1) Facts₀.reducesTo_S600000x1_S600000_d1 Facts₀.h_S_ j = 1#1 := by
  rw [Host.reduce_eq_foldl]
  refine foldl_andi_one _ (fun i => ?_) _
  obtain ⟨k, hk⟩ := wrapped_apply v i
  show IntOp.andi (IntOp.cmpi .sge (wrapped v i) 0#32) (IntOp.cmpi .sle (wrapped v i) 99999#32) = 1#1
  rw [hk]
  exact wrapped_in_range (v k) (hv k).1 (hv k).2

/-! ## The gathered rows -/

set_option maxHeartbeats 2000000 in
/-- The gathered-rows buffer as the term its host operations compute: the guarded gather, the guard the
    conjunction over the one index column of "0 ≤ wrapped index ≤ 99999", a failed guard yielding the NaN word. -/
theorem v4_term (m : (ℓ : Loc nD τ sig) → Buf (Elt F) ℓ) (c : Dev nD) :
    (V m c main_v4 : Vec F S600000x128 .f32)
      = select
          (broadcastInDim S600000x128 ![0] Facts₀.bcast_S600000_S600000x128_0
            (Host.reduce IntOp.andi
              (andi
                (cmpi .sge (wrapped (endsOf (m ((c.tc : Thread nD τ).loc main_arg2))))
                  (broadcastInDim S600000x1 ![] Facts₀.bcast_S_S600000x1 (constantI S_ 32 0#32)))
                (cmpi .sle (wrapped (endsOf (m ((c.tc : Thread nD τ).loc main_arg2))))
                  (broadcastInDim S600000x1 ![0, 1] Facts₀.bcast_S1x1_S600000x1_0_1
                    (broadcastInDim S1x1 ![1] Facts₀.bcast_S1_S1x1_1 (constantI S1 32 99999#32)))))
              (constantI S_ 1 1#1) Facts₀.reducesTo_S600000x1_S600000_d1 Facts₀.h_S_))
          (Host.gather gather_S100000x128_S600000x1_S600000x128_1_0_n_n_0_1_1128 (m ((c.tc : Thread nD τ).loc main_arg0))
            (wrapped (endsOf (m ((c.tc : Thread nD τ).loc main_arg2)))))
          (broadcastInDim S600000x128 ![] Facts₀.bcast_S_S600000x128 (constant S_ .f32 0x7FC00000#32)) := by
  dsimp only [Gen.V, Gen.V0]
  simp only [Gen.hostOps0, Gen.hostOps0_1, Gen.hostOps0_2, List.flatten_cons, List.flatten_nil, List.append_nil, List.cons_append, List.nil_append]
  after_results_simp
  simp only [StableHlo.TRef.ofBuf, StableHlo.TRef.toBuf, cast_eq]
  rfl

/-- When every end-node index is in range, the gathered-rows buffer the region finds is the plain row gather of
    the node table at the wrapped indices: the guard is the set bit at every edge, so the select keeps the
    gathered row everywhere. -/
theorem take_eq (m : (ℓ : Loc nD τ sig) → Buf (Elt F) ℓ) (c : Dev nD)
    (h : ∀ e : Fin 600000, InRange (endsOf (m ((c.tc : Thread nD τ).loc main_arg2)) (ix1 e))) :
    (V m c main_v4 : Vec F S600000x128 .f32)
      = Host.gather gather_S100000x128_S600000x1_S600000x128_1_0_n_n_0_1_1128 (m ((c.tc : Thread nD τ).loc main_arg0))
          (wrapped (endsOf (m ((c.tc : Thread nD τ).loc main_arg2)))) := by
  refine (v4_term m c).trans ?_
  -- every entry of the index vector is in range: a rank-1 index is its one coordinate
  have hv : ∀ k : S600000.Idx, InRange (endsOf (m ((c.tc : Thread nD τ).loc main_arg2)) k) := fun k => by
    rw [eq_ix1 k]
    exact h (k 0)
  -- a vector that is the set bit everywhere stays so when broadcast along the rows
  have hb : ∀ (g : IVec S600000 1), (∀ j, g j = 1#1) → ∀ i : S600000x128.Idx,
      broadcastInDim S600000x128 ![0] Facts₀.bcast_S600000_S600000x128_0 g i = 1#1 := fun g hg i => hg _
  funext i
  rw [select_apply, hb _ (guard_one _ hv) i, select_one]

end Cert.KernelIdeal.TakeRows

end
-- ==== Proof.KernelRun.lean ====
/-
  The kernel program's run, read back: the result buffer ends holding the scatter-add of the kernel's output array
  onto the node table at the wrapped start indices, and the seven arguments end unchanged.
-/
import proofs.«405003_j88914412962557_1_alg».proof.Proof.Gen.KernelIdeal.Frame
import proofs.«405003_j88914412962557_1_alg».proof.Proof.EdgeEnds
import Idealize.ShloMosaic.Lib.ValueIdx
import Idealize.ShloMosaic.Lib.Pipeline.Value
import Idealize.ShloMosaic.Lib.StableHlo.Run

set_option maxRecDepth 16384

noncomputable section

namespace Cert.KernelIdeal.KernelRun

open Idealize.ShloMosaic Idealize.ShloMosaic.ValueIdx Idealize.ShloMosaic.TcCoe Idealize.SL.Sem
open Cert.KernelIdeal Cert.KernelIdeal.Gen Cert.KernelIdeal.EdgeEnds
open Cert.KernelIdeal.Facts₀ Cert.KernelIdeal.Facts

variable {F : FTy → Type} [FloatOps F]
variable (m : (ℓ : Loc nD τ sig) → Buf (Elt F) ℓ) (ρ : Dev nD → PrngReg)

/-- The start column as the lines after the region read it: column 0 of the edge table. -/
theorem starts_eq (c : Dev nD) :
    (V m c main_v1 : IVec S600000 32) = startsOf (m ((c : Thread nD τ).loc main_arg2)) := by
  dsimp only [V, V0]
  simp only [hostOps0, hostOps0_1, hostOps0_2, List.flatten_cons, List.flatten_nil, List.append_nil, List.cons_append,
    List.nil_append]
  after_results
  rfl

set_option maxHeartbeats 2000000 in
/-- What the lines after the region leave in the result buffer: they read the node table and the start column
    where the region left them untouched, and the kernel's output array where the region's write-backs left it. -/
theorem tail_result (c : Dev nD) :
    (Pipeline.afterTail₀ cfgs (dats m) 0 (V0 m) [hostOps1] c main_v14 : Vec F S100000x128 .f32)
      = Host.scatterAdd scatter_S100000x128_S600000x1_S600000x128_1_0_0_1 (m ((c : Thread nD τ).loc main_arg0))
          (wrapped (startsOf (m ((c : Thread nD τ).loc main_arg2)))) ((dats m 0 c).arrAt 6 cfg0.N) := by
  have h0 : Pipeline.withArrays (cfgs 0).spec c (V0 m c) (fun w => (dats m 0 c).arrAt w (cfgs 0).N) (Proc.devRef .tc main_arg0)
      = m ((c : Thread nD τ).loc main_arg0) :=
    (Pipeline.withArrays_of_ne _ c (V0 m c) _ main_arg0 (by exact (by decide : ∀ w, Pipeline.arrRef spec0 w ≠ main_arg0))).trans
      (V_main_arg0 m c)
  have h1 : Pipeline.withArrays (cfgs 0).spec c (V0 m c) (fun w => (dats m 0 c).arrAt w (cfgs 0).N) (Proc.devRef .tc main_v1)
      = startsOf (m ((c : Thread nD τ).loc main_arg2)) :=
    (Pipeline.withArrays_of_ne _ c (V0 m c) _ main_v1 (by exact (by decide : ∀ w, Pipeline.arrRef spec0 w ≠ main_v1))).trans
      (starts_eq m c)
  have h7 : Pipeline.withArrays (cfgs 0).spec c (V0 m c) (fun w => (dats m 0 c).arrAt w (cfgs 0).N) (Proc.devRef .tc main_v7)
      = (dats m 0 c).arrAt 6 cfg0.N :=
    Pipeline.withArrays_arr spec0 launch0.win.arr_inj c _ _ 6
  unfold Pipeline.afterTail₀
  show StableHlo.after hostOps1 _ (Proc.devRef .tc main_v14) = _
  after_results
  rw [h0, h1, h7]

/-- The run: every weakly fair execution terminates with the result buffer at the scatter-add of the kernel's output
    array (whatever it is shown to hold: `M`) and the seven arguments unchanged. -/
theorem run (M : (c : Dev nD) → Vec F S600000x128 .f32) (hM : ∀ c, (dats m 0 c).arrAt 6 cfg0.N = M c) :
    θ_run defs (onTc (τ := τ) (main (F := F))) ⟨m, fun _ => 0, ρ⟩ (fun r => ∀ c : Dev nD,
      r.2.mem ((c.tc : Thread nD τ).loc main_v14)
          = Host.scatterAdd scatter_S100000x128_S600000x1_S600000x128_1_0_0_1 (m ((c : Thread nD τ).loc main_arg0))
              (wrapped (startsOf (m ((c : Thread nD τ).loc main_arg2)))) (M c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v14 (Pipeline.mem_restRefs_of main_v14 (by decide) (by decide))).trans ((tail_result m c).trans (by rw [hM c])),
      (((h c).2 main_arg0 (Pipeline.mem_restRefs_of main_arg0 (by decide) (by decide))).trans (W_main_arg0 m (dats m) c)),
      ((h c).1 0).trans (((dats m 0 c).arrAt_in 0 rfl _).trans ((A_eq m c 0).trans (V_main_arg1 m c))),
      (((h c).2 main_arg2 (Pipeline.mem_restRefs_of main_arg2 (by decide) (by decide))).trans (W_main_arg2 m (dats m) c)),
      ((h c).1 2).trans (((dats m 0 c).arrAt_in 2 rfl _).trans ((A_eq m c 2).trans (V_main_arg3 m c))),
      (((h c).2 main_arg4 (Pipeline.mem_restRefs_of main_arg4 (by decide) (by decide))).trans (W_main_arg4 m (dats m) c)),
      ((h c).1 4).trans (((dats m 0 c).arrAt_in 4 rfl _).trans ((A_eq m c 4).trans (V_main_arg5 m c))),
      (((h c).2 main_arg6 (Pipeline.mem_restRefs_of main_arg6 (by decide) (by decide))).trans (W_main_arg6 m (dats m) c))⟩)
    (run_main m ρ)

end Cert.KernelIdeal.KernelRun

end
-- ==== Proof.RefFilter.lean ====
import proofs.«405003_j88914412962557_1_alg».proof.Proof.Gen.ReferenceIdeal.Read
import proofs.«405003_j88914412962557_1_alg».proof.Proof.EdgeFilter
import Idealize.ShloMosaic.Lib.ValueIdx

noncomputable section

namespace Cert.ReferenceIdeal.RefValue

open Idealize.ShloMosaic Idealize.ShloMosaic.ValueIdx Cert.ReferenceIdeal Cert.ReferenceIdeal.Read

/-- One application of the reference's softplus at a point, its zero constant read as the extended real `0`: the
    guard `y - 0 ≠ y - 0` never holds on the extended reals, so the `select` takes its second branch, and what is left
    minus the `log 2` word is `shiftedSoftplus y` as written. -/
theorem softplus_pt (y : EReal) :
    Scalar.select (Ideal.cmp .une (y - 0) (y - 0)) (y + 0)
        (max y 0 + Ideal.log1p (Ideal.exp (-(max (y - 0) (-(y - 0))))))
      - Ideal.ofBits .f32 0x3F317218#32 = Cert.EdgeFilter.shiftedSoftplus y := by
  have h : Ideal.cmp .une (y - 0) (y - 0) = 0#1 := by
    simp only [Ideal.cmp, ne_eq, not_true_eq_false, decide_false]
    rfl
  rw [h, ValueIdx.select_zero]
  rfl

/-- The first layer before its activation, at edge `e` and hidden channel `k`: the row of `x1` against column `k` of
    `x3`, plus `x4 k`. -/
theorem v7_apply (x1 : (⟨S600000x64, .f32⟩ : BufTy).Contents (Elt Ideal)) (x3 : (⟨S64x128, .f32⟩ : BufTy).Contents (Elt Ideal))
    (x4 : (⟨S128, .f32⟩ : BufTy).Contents (Elt Ideal)) (e : Fin 600000) (k : Fin 128) :
    val_main_v7 (F := Ideal) x1 x3 x4 (ix2 e k) = (∑ j : Fin 64, x1 (ix2 e j) * x3 (ix2 j k)) + x4 (ix1 k) := by
  have hl : ∀ j : Fin 64, lidx_main_v4 (ix2 e k) j = ix2 e j := fun j =>
    funext fun a => Fin.ext (by match a with | ⟨0, _⟩ => rfl | ⟨1, _⟩ => rfl)
  have hr : ∀ j : Fin 64, ridx_main_v4 (ix2 e k) j = ix2 j k := fun j =>
    funext fun a => Fin.ext (by match a with | ⟨0, _⟩ => rfl | ⟨1, _⟩ => rfl)
  have hb : idx_main_v5 (idx_main_v6 (ix2 e k)) = ix1 k :=
    funext fun a => Fin.ext (by match a with | ⟨0, _⟩ => rfl)
  rw [val_main_v7_apply, val_main_v4_apply, val_main_v6_apply, val_main_v5_apply, hb, Ideal.addf_def]
  simp only [hl, hr]

/-- The hidden layer after its activation and the subtraction of the `log 2` word. -/
theorem v10_apply (x1 : (⟨S600000x64, .f32⟩ : BufTy).Contents (Elt Ideal)) (x3 : (⟨S64x128, .f32⟩ : BufTy).Contents (Elt Ideal))
    (x4 : (⟨S128, .f32⟩ : BufTy).Contents (Elt Ideal)) (e : Fin 600000) (k : Fin 128) :
    val_main_v10 (F := Ideal) x1 x3 x4 (ix2 e k)
      = Cert.EdgeFilter.hidden (fun j => x1 (ix2 e j)) (fun j k => x3 (ix2 j k)) (fun k => x4 (ix1 k)) k := by
  rw [val_main_v10_apply, val_main_v8_apply, val_main_call0_v4_apply, val_main_call0_v6_apply, val_main_call0_v11_apply,
    val_main_call0_v1_apply, val_main_call0_v10_apply, val_main_call0_v9_apply, val_main_call0_v8_apply,
    val_main_call0_v7_apply, val_main_call0_v3_apply, val_main_call0_v0_apply, val_main_call0_v2_apply,
    val_main_call0_v5_apply, val_main_call0_cst_apply,
    val_main_v9_apply, val_main_cst_apply, v7_apply]
  simp only [Ideal.ofBits_def, Ideal.ofBits_zero_f32, Ideal.addf_def, Ideal.subf_def, Ideal.maximumf_def,
    Ideal.hostUnary_exp_def, Ideal.hostUnary_log1p_def, Ideal.hostNegf_def, Ideal.hostAbsf_def, Ideal.negf_def,
    Ideal.absf_def, Ideal.cmpf_def]
  rw [softplus_pt]
  rfl

theorem filter_apply (x1 : (⟨S600000x64, .f32⟩ : BufTy).Contents (Elt Ideal)) (x3 : (⟨S64x128, .f32⟩ : BufTy).Contents (Elt Ideal))
    (x4 : (⟨S128, .f32⟩ : BufTy).Contents (Elt Ideal)) (x5 : (⟨S128x128, .f32⟩ : BufTy).Contents (Elt Ideal))
    (x6 : (⟨S128, .f32⟩ : BufTy).Contents (Elt Ideal)) (e : Fin 600000) (d : Fin 128) :
    val_main_v17 (F := Ideal) x1 x3 x4 x5 x6 (ix2 e d)
      = Cert.EdgeFilter.filter (fun j => x1 (ix2 e j)) (fun j k => x3 (ix2 j k)) (fun k => x4 (ix1 k))
          (fun k d' => x5 (ix2 k d')) (fun d' => x6 (ix1 d')) d := by
  have hl : ∀ k : Fin 128, lidx_main_v11 (ix2 e d) k = ix2 e k := fun k =>
    funext fun a => Fin.ext (by match a with | ⟨0, _⟩ => rfl | ⟨1, _⟩ => rfl)
  have hr : ∀ k : Fin 128, ridx_main_v11 (ix2 e d) k = ix2 k d := fun k =>
    funext fun a => Fin.ext (by match a with | ⟨0, _⟩ => rfl | ⟨1, _⟩ => rfl)
  have hb : idx_main_v12 (idx_main_v13 (ix2 e d)) = ix1 d :=
    funext fun a => Fin.ext (by match a with | ⟨0, _⟩ => rfl)
  -- the second layer before its activation: the hidden row against column `d` of `x5`, plus `x6 d`
  have h14 : val_main_v14 (F := Ideal) x1 x3 x4 x5 x6 (ix2 e d)
      = (∑ k : Fin 128, Cert.EdgeFilter.hidden (fun j => x1 (ix2 e j)) (fun j k => x3 (ix2 j k)) (fun k => x4 (ix1 k)) k
          * x5 (ix2 k d)) + x6 (ix1 d) := by
    rw [val_main_v14_apply, val_main_v11_apply, val_main_v13_apply, val_main_v12_apply, hb, Ideal.addf_def]
    simp only [hl, hr, v10_apply]
  rw [val_main_v17_apply, val_main_v15_apply, val_main_call1_v4_apply, val_main_call1_v6_apply, val_main_call1_v11_apply,
    val_main_call1_v1_apply, val_main_call1_v10_apply, val_main_call1_v9_apply, val_main_call1_v8_apply,
    val_main_call1_v7_apply, val_main_call1_v3_apply, val_main_call1_v0_apply, val_main_call1_v2_apply,
    val_main_call1_v5_apply, val_main_call1_cst_apply, val_main_v16_apply, val_main_cst_0_apply, h14]
  simp only [Ideal.ofBits_def, Ideal.ofBits_zero_f32, Ideal.addf_def, Ideal.subf_def, Ideal.maximumf_def,
    Ideal.hostUnary_exp_def, Ideal.hostUnary_log1p_def, Ideal.hostNegf_def, Ideal.hostAbsf_def, Ideal.negf_def,
    Ideal.absf_def, Ideal.cmpf_def]
  rw [softplus_pt]
  rfl

end Cert.ReferenceIdeal.RefValue

end
-- ==== Proof.Bridge.lean ====
/-
  The two programs' result terms are one function of the arguments.

  Both end in the same scatter-add onto the node table at the same wrapped start indices; what they scatter is,
  at edge e and channel d, the gathered node row's entry times the edge's filter: the reference's product of its
  gather with its filter array, the kernel's message array over the plain gather.
-/
import proofs.«405003_j88914412962557_1_alg».proof.Proof.RefFilter
import proofs.«405003_j88914412962557_1_alg».proof.Proof.Messages
import proofs.«405003_j88914412962557_1_alg».proof.Proof.EdgeEnds

noncomputable section

namespace Cert.Bridge

open Idealize.ShloMosaic Idealize.ShloMosaic.ValueIdx

/-- The reference's result term equals the kernel program's: scatter-add of the message array over the plain gather. -/
theorem result_eq (x0 : Vec Ideal Cert.KernelIdeal.S100000x128 .f32) (x1 : Vec Ideal Cert.KernelIdeal.S600000x64 .f32)
    (x2 : IVec Cert.KernelIdeal.S600000x2 32) (x3 : Vec Ideal Cert.KernelIdeal.S64x128 .f32) (x4 : Vec Ideal Cert.KernelIdeal.S128 .f32)
    (x5 : Vec Ideal Cert.KernelIdeal.S128x128 .f32) (x6 : Vec Ideal Cert.KernelIdeal.S128 .f32) :
    (Cert.ReferenceIdeal.Read.val_main_v32 (F := Ideal) x0 x1 x2 x3 x4 x5 x6 : Vec Ideal Cert.KernelIdeal.S100000x128 .f32)
      = Host.scatterAdd (F := Ideal) (φ := .f32) Cert.KernelIdeal.scatter_S100000x128_S600000x1_S600000x128_1_0_0_1 x0
          (Cert.KernelIdeal.EdgeEnds.wrapped (Cert.KernelIdeal.EdgeEnds.startsOf x2))
          (Cert.KernelIdeal.Messages.msgs
            (Host.gather Cert.KernelIdeal.gather_S100000x128_S600000x1_S600000x128_1_0_n_n_0_1_1128 x0
              (Cert.KernelIdeal.EdgeEnds.wrapped (Cert.KernelIdeal.EdgeEnds.endsOf x2)))
            x1 x3 x4 x5 x6) := by
  unfold Cert.ReferenceIdeal.Read.val_main_v32
  have hupd : (Cert.ReferenceIdeal.Read.val_main_v25 (F := Ideal) x0 x1 x2 x3 x4 x5 x6 : Vec Ideal Cert.KernelIdeal.S600000x128 .f32)
      = Cert.KernelIdeal.Messages.msgs
          (Host.gather Cert.KernelIdeal.gather_S100000x128_S600000x1_S600000x128_1_0_n_n_0_1_1128 x0
            (Cert.KernelIdeal.EdgeEnds.wrapped (Cert.KernelIdeal.EdgeEnds.endsOf x2)))
          x1 x3 x4 x5 x6 := by
    funext i
    obtain ⟨e, d, rfl⟩ : ∃ (e : Fin 600000) (d : Fin 128), i = ix2 e d := ⟨i 0, i 1, eq_ix2 i⟩
    rw [Cert.ReferenceIdeal.Read.val_main_v25_apply, Cert.ReferenceIdeal.RefValue.filter_apply]
    rfl
  rw [hupd]
  rfl

end Cert.Bridge

end
-- ==== Proof.lean ====
/-
  A continuous-filter convolution step on a graph: for every edge e (600000 of them) a filter is computed from the
  edge's 64 features by a two-layer perceptron with a shifted softplus after each layer, the 128 features of the
  edge's end node are multiplied by it channel by channel, and the products are added onto the row of the edge's
  start node in the node table (100000 × 128):

      out = nodes.at[starts].add( nodes[ends] · filter(edges) ).

  The kernel program gathers the end-node rows on the host, computes  gathered · filter(edges)  in a tiled kernel
  (100 blocks of 6000 edges; the weights and biases staged whole), and scatter-adds on the host; the reference does
  all of it with whole-array operations. On the extended reals the two agree:

  * a block's rows are rows of the whole arrays, each edge's filter depends only on that edge's row, and the blocks
    tile the edges, so the kernel's output array is  msgs[e, d] = gathered[e, d] · filter(edges[e, :])[d]
    (Proof/BodyValue.lean: one block; Proof/Messages.lean: the whole array);
  * a matrix product into a zero accumulator and the host's contraction are the same finite sum, a change of float
    format is the identity, and the two spellings of the softplus are one function (Proof/EdgeFilter.lean is the
    common form; Proof/RefFilter.lean reads the reference's filter array at an index);
  * the kernel's gather replaces a row by a not-a-number filler when the end index, read the numpy way (a negative
    index counts from the end), falls outside the table, where the reference's gather clamps. Under the
    precondition that every end index lies in [−100000, 100000) the guard is all ones and the two gathers are the
    same term (Proof/EndsRange.lean decodes the precondition, Proof/TakeRows.lean removes the guard);
  * both programs end in the same scatter-add at the same wrapped start indices, which is never opened
    (Proof/KernelRun.lean reads the kernel program's run back; Proof/Bridge.lean joins the two result terms).

  The three frames are the generated ones; the ideal pass rewrote nothing, so `preserves` is trivial.
-/
import proofs.«405003_j88914412962557_1_alg».proof.Defs
import proofs.«405003_j88914412962557_1_alg».proof.Proof.Gen.Kernel
import proofs.«405003_j88914412962557_1_alg».proof.Proof.Gen.Kernel.Skeleton
import proofs.«405003_j88914412962557_1_alg».proof.Proof.Gen.Kernel.Launch
import proofs.«405003_j88914412962557_1_alg».proof.Proof.Gen.Kernel.Points
import proofs.«405003_j88914412962557_1_alg».proof.Proof.Gen.Kernel.Frame
import proofs.«405003_j88914412962557_1_alg».proof.Proof.Gen.KernelIdeal
import proofs.«405003_j88914412962557_1_alg».proof.Proof.Gen.KernelIdeal.Skeleton
import proofs.«405003_j88914412962557_1_alg».proof.Proof.Gen.KernelIdeal.Launch
import proofs.«405003_j88914412962557_1_alg».proof.Proof.Gen.KernelIdeal.Points
import proofs.«405003_j88914412962557_1_alg».proof.Proof.Gen.KernelIdeal.Frame
import proofs.«405003_j88914412962557_1_alg».proof.Proof.Gen.ReferenceIdeal
import proofs.«405003_j88914412962557_1_alg».proof.Proof.Gen.ReferenceIdeal.Run
import proofs.«405003_j88914412962557_1_alg».proof.Proof.Gen.ReferenceIdeal.Read
import proofs.«405003_j88914412962557_1_alg».proof.Proof.Gen.Pre_finite_inputs
import proofs.«405003_j88914412962557_1_alg».proof.Proof.BodyValue
import proofs.«405003_j88914412962557_1_alg».proof.Proof.Messages
import proofs.«405003_j88914412962557_1_alg».proof.Proof.EndsRange
import proofs.«405003_j88914412962557_1_alg».proof.Proof.TakeRows
import proofs.«405003_j88914412962557_1_alg».proof.Proof.KernelRun
import proofs.«405003_j88914412962557_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the node table plus, at each start row, the sum of that row's messages. -/
theorem algebraic : Cert.algebraic_KernelIdeal_ReferenceIdeal := by
  intro m ρ m' ρ' hpre hagree
  have hM : ∀ c : Dev Cert.KernelIdeal.nD,
      (Cert.KernelIdeal.Gen.dats m 0 c).arrAt 6 Cert.KernelIdeal.cfg0.N
        = Cert.KernelIdeal.Messages.msgs
            (Host.gather Cert.KernelIdeal.gather_S100000x128_S600000x1_S600000x128_1_0_n_n_0_1_1128
              (m ((c.tc : Thread Cert.KernelIdeal.nD Cert.KernelIdeal.τ).loc Cert.KernelIdeal.main_arg0))
              (Cert.KernelIdeal.EdgeEnds.wrapped (Cert.KernelIdeal.EdgeEnds.endsOf
                (m ((c.tc : Thread Cert.KernelIdeal.nD Cert.KernelIdeal.τ).loc Cert.KernelIdeal.main_arg2)))))
            (m ((c.tc : Thread Cert.KernelIdeal.nD Cert.KernelIdeal.τ).loc Cert.KernelIdeal.main_arg1))
            (m ((c.tc : Thread Cert.KernelIdeal.nD Cert.KernelIdeal.τ).loc Cert.KernelIdeal.main_arg3))
            (m ((c.tc : Thread Cert.KernelIdeal.nD Cert.KernelIdeal.τ).loc Cert.KernelIdeal.main_arg4))
            (m ((c.tc : Thread Cert.KernelIdeal.nD Cert.KernelIdeal.τ).loc Cert.KernelIdeal.main_arg5))
            (m ((c.tc : Thread Cert.KernelIdeal.nD Cert.KernelIdeal.τ).loc Cert.KernelIdeal.main_arg6)) := fun c => by
    rw [Cert.KernelIdeal.Messages.final m Cert.KernelIdeal.BodyValue.out_apply c,
      Cert.KernelIdeal.TakeRows.take_eq m c (fun e => Cert.KernelIdeal.EdgeEnds.ends_in_range m hpre c e)]
  refine ⟨_, Cert.KernelIdeal.KernelRun.run m ρ _ hM, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v32_eq, (hagree c).1, (hagree c).2.1, (hagree c).2.2.1, (hagree c).2.2.2.1,
    (hagree c).2.2.2.2.1, (hagree c).2.2.2.2.2.1, (hagree c).2.2.2.2.2.2]
  exact Cert.Bridge.result_eq _ _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
